-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S16000000 : Shape := ⟨1, ![16000000]⟩
abbrev S2x16000000 : Shape := ⟨2, ![2, 16000000]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S16000000 : S_.BroadcastsInDim S16000000 (![] : Fin 0 → Fin S16000000.rank)
  reducesTo_S16000000_S_d0 : S16000000.ReducesTo [0] S_

variable [Facts]

def fn_part1 {F : FTy → Type} [FloatOps F] (main_arg4 : FVec F S500000 .f32) (main_arg5 : FVec F S16000000 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S500000 .f32 := Host.absf main_arg4
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S16000000 .f32 := Host.absf main_arg5
  let main_cst_8 : FVec F S_ .f32 := constant S_ .f32 0x7F800000#32
  let main_v25 : FVec F S16000000 .f32 := broadcastInDim S16000000 ![] bcast_S_S16000000 main_cst_8
  let main_v26 : IVec S16000000 1 := cmpf .olt main_v24 main_v25
  let main_c_9 : IVec S_ 1 := constantI S_ 1 1#1
  let main_v27 : IVec S_ 1 := (fun x v => Host.reduce IntOp.andi x v reducesTo_S16000000_S_d0 h_S_) main_v26 main_c_9
  let main_v28 : IVec S_ 1 := andi main_v23 main_v27
  main_v28

def fn {F : FTy → Type} [FloatOps F] (main_arg0 : FVec F S500000 .f32) (main_arg1 : FVec F S500000 .f32) (main_arg2 : FVec F S500000 .f32) (main_arg3 : FVec F S500000 .f32) (main_arg4 : FVec F S500000 .f32) (main_arg5 : FVec F S16000000 .f32) (main_arg6 : IVec S2x16000000 32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S500000 .f32 := Host.absf main_arg3
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg4 main_arg5 main_v13 main_v16
-- ==== Kernel.lean ====
abbrev S500000 : Shape := ⟨1, ![500000]⟩
abbrev S16000000 : Shape := ⟨1, ![16000000]⟩
abbrev S2x16000000 : Shape := ⟨2, ![2, 16000000]⟩
abbrev S1x16000000 : Shape := ⟨2, ![1, 16000000]⟩
abbrev S_ : Shape := ⟨0, ![]⟩
abbrev S16000000x1 : Shape := ⟨2, ![16000000, 1]⟩
abbrev S125000x128 : Shape := ⟨2, ![125000, 128]⟩
abbrev S5000x128 : Shape := ⟨2, ![5000, 128]⟩
abbrev S32000000 : Shape := ⟨1, ![32000000]⟩
abbrev S32000000x1 : Shape := ⟨2, ![32000000, 1]⟩
abbrev S500096 : Shape := ⟨1, ![500096]⟩
abbrev S3907x128 : Shape := ⟨2, ![3907, 128]⟩

abbrev nBuf : Space → Nat
  | .hbm => 71
  | .vmem => 14
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .f32⟩
  | .hbm, ⟨3, _⟩ => ⟨S500000, .f32⟩
  | .hbm, ⟨4, _⟩ => ⟨S500000, .f32⟩
  | .hbm, ⟨5, _⟩ => ⟨S16000000, .f32⟩
  | .hbm, ⟨6, _⟩ => ⟨S2x16000000, .i32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S125000x128, .f32⟩
  | .hbm, ⟨30, _⟩ => ⟨S125000x128, .f32⟩
  | .hbm, ⟨31, _⟩ => ⟨S125000x128, .f32⟩
  | .hbm, ⟨32, _⟩ => ⟨S125000x128, .f32⟩
  | .hbm, ⟨33, _⟩ => ⟨S16000000, .f32⟩
  | .hbm, ⟨34, _⟩ => ⟨S32000000, .i32⟩
  | .hbm, ⟨35, _⟩ => ⟨S16000000, .f32⟩
  | .hbm, ⟨36, _⟩ => ⟨S32000000, .f32⟩
  | .hbm, ⟨37, _⟩ => ⟨S_, .f32⟩
  | .hbm, ⟨38, _⟩ => ⟨S500000, .f32⟩
  | .hbm, ⟨39, _⟩ => ⟨S_, .i32⟩
  | .hbm, ⟨40, _⟩ => ⟨S32000000, .i32⟩
  | .hbm, ⟨41, _⟩ => ⟨S32000000, .i1⟩
  | .hbm, ⟨42, _⟩ => ⟨S_, .i32⟩
  | .hbm, ⟨43, _⟩ => ⟨S32000000, .i32⟩
  | .hbm, ⟨44, _⟩ => ⟨S32000000, .i32⟩
  | .hbm, ⟨45, _⟩ => ⟨S32000000, .i32⟩
  | .hbm, ⟨46, _⟩ => ⟨S32000000x1, .i32⟩
  | .hbm, ⟨47, _⟩ => ⟨S500000, .f32⟩
  | .hbm, ⟨48, _⟩ => ⟨S_, .f32⟩
  | .hbm, ⟨49, _⟩ => ⟨S_, .f32⟩
  | .hbm, ⟨50, _⟩ => ⟨S500096, .f32⟩
  | .hbm, ⟨51, _⟩ => ⟨S3907x128, .f32⟩
  | .hbm, ⟨52, _⟩ => ⟨S_, .f32⟩
  | .hbm, ⟨53, _⟩ => ⟨S_, .f32⟩
  | .hbm, ⟨54, _⟩ => ⟨S500096, .f32⟩
  | .hbm, ⟨55, _⟩ => ⟨S3907x128, .f32⟩
  | .hbm, ⟨56, _⟩ => ⟨S_, .f32⟩
  | .hbm, ⟨57, _⟩ => ⟨S_, .f32⟩
  | .hbm, ⟨58, _⟩ => ⟨S500096, .f32⟩
  | .hbm, ⟨59, _⟩ => ⟨S3907x128, .f32⟩
  | .hbm, ⟨60, _⟩ => ⟨S_, .f32⟩
  | .hbm, ⟨61, _⟩ => ⟨S_, .f32⟩
  | .hbm, ⟨62, _⟩ => ⟨S500096, .f32⟩
  | .hbm, ⟨63, _⟩ => ⟨S3907x128, .f32⟩
  | .hbm, ⟨64, _⟩ => ⟨S_, .f32⟩
  | .hbm, ⟨65, _⟩ => ⟨S_, .f32⟩
  | .hbm, ⟨66, _⟩ => ⟨S500096, .f32⟩
  | .hbm, ⟨67, _⟩ => ⟨S3907x128, .f32⟩
  | .hbm, ⟨68, _⟩ => ⟨S3907x128, .f32⟩
  | .hbm, ⟨69, _⟩ => ⟨S500096, .f32⟩
  | .hbm, ⟨70, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S3907x128, .f32⟩
  | .local _ .vmem, ⟨9, _⟩ => ⟨S3907x128, .f32⟩
  | .local _ .vmem, ⟨10, _⟩ => ⟨S3907x128, .f32⟩
  | .local _ .vmem, ⟨11, _⟩ => ⟨S3907x128, .f32⟩
  | .local _ .vmem, ⟨12, _⟩ => ⟨S3907x128, .f32⟩
  | .local _ .vmem, ⟨13, _⟩ => ⟨S3907x128, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_call0_v0 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_call2_v0 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_call3_v0 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_call4_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S3907x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3907x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3907x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3907x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3907x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3907x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S16000000_S125000x128 : S16000000.ShapeCasts S125000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S125000x128_S16000000 : S125000x128.ShapeCasts S16000000
  concatenates_S16000000_S16000000_S32000000_d0 : Shape.Concatenates [S16000000, S16000000] S32000000 0
  bcast_S_S500000 : S_.BroadcastsInDim S500000 (![] : Fin 0 → Fin S500000.rank)
  bcast_S_S32000000 : S_.BroadcastsInDim S32000000 (![] : Fin 0 → Fin S32000000.rank)
  bcast_S32000000_S32000000x1_0 : S32000000.BroadcastsInDim S32000000x1 (![0] : Fin 1 → Fin S32000000x1.rank)
  pads_S500000_S500096_0960 : S500000.Pads (![0] : Fin 1 → Nat) ![96] ![0] S500096
  h_S_ : 0 < S_.numel
  shapeCasts_S500096_S3907x128 : S500096.ShapeCasts S3907x128
  inb_S3907x128_S3907x128_0_0 : ∀ a, (![0, 0] : Fin 2 → Nat) a + S3907x128.size a ≤ S3907x128.size a
  h_S3907x128 : 0 < S3907x128.numel
  shapeCasts_S3907x128_S3907x128 : S3907x128.ShapeCasts S3907x128
  shapeCasts_S3907x128_S500096 : S3907x128.ShapeCasts S500096
  slices_S500096_S500000_0 : S500096.Slices ![0] S500000
  gather_S500000_S16000000x1_S16000000_n_0_n_n_0_1_1_wf : GatherDims.WF S500000 S16000000x1 S16000000 [] [0] [] [0] [] 1 ![1]
  scatter_S500000_S32000000x1_S32000000_n_0_0_1_wf : ScatterDims.WF S500000 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S125000x128.size a
  hwx0_0 : ∀ i : grid0.Coords, EltTy.bits .f32 = 32 ∨ (Rect.block (s := S125000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S125000x128.size a
  hwx0_1 : ∀ i : grid0.Coords, EltTy.bits .f32 = 32 ∨ (Rect.block (s := S125000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S125000x128.size a
  hwx0_2 : ∀ i : grid0.Coords, EltTy.bits .f32 = 32 ∨ (Rect.block (s := S125000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S125000x128.size a
  hwx0_3 : ∀ i : grid0.Coords, EltTy.bits .f32 = 32 ∨ (Rect.block (s := S125000x128) S5000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S3907x128.size a ≤ S3907x128.size a
  hwx1_0 : ∀ i : grid1.Coords, EltTy.bits .f32 = 32 ∨ (Rect.block (s := S3907x128) S3907x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3907x128.size a ≤ S3907x128.size a
  hwx1_1 : ∀ i : grid1.Coords, EltTy.bits .f32 = 32 ∨ (Rect.block (s := S3907x128) S3907x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3907x128.size a ≤ S3907x128.size a
  hwx1_2 : ∀ i : grid1.Coords, EltTy.bits .f32 = 32 ∨ (Rect.block (s := S3907x128) S3907x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3907x128.size a ≤ S3907x128.size a
  hwx1_3 : ∀ i : grid1.Coords, EltTy.bits .f32 = 32 ∨ (Rect.block (s := S3907x128) S3907x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3907x128.size a ≤ S3907x128.size a
  hwx1_4 : ∀ i : grid1.Coords, EltTy.bits .f32 = 32 ∨ (Rect.block (s := S3907x128) S3907x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3907x128.size a ≤ S3907x128.size a
  hwx1_5 : ∀ i : grid1.Coords, EltTy.bits .f32 = 32 ∨ (Rect.block (s := S3907x128) S3907x128.size (cc1_transform_5 i) (hinb1_5 i)).WholeWords (EltTy.packing .f32)

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S32000000x1_S32000000_n_0_0_1 : ScatterDims S500000 S32000000x1 S32000000 where
  updateWindowDims := []
  insertedWindowDims := [0]
  scatterDimsToOperandDims := [0]
  indexVectorDim := 1
  wf := scatter_S500000_S32000000x1_S32000000_n_0_0_1_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S3907x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v37) S3907x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S3907x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S3907x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S3907x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S3907x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000 : Shape := ⟨1, ![500000]⟩
abbrev S16000000 : Shape := ⟨1, ![16000000]⟩
abbrev S2x16000000 : Shape := ⟨2, ![2, 16000000]⟩
abbrev S1x16000000 : Shape := ⟨2, ![1, 16000000]⟩
abbrev S_ : Shape := ⟨0, ![]⟩
abbrev S16000000x1 : Shape := ⟨2, ![16000000, 1]⟩

abbrev nBuf : Space → Nat
  | .hbm => 54
  | .vmem => 0
  | .smem => 0
  | _ => 0

abbrev bufTy : (tb : Table) → Fin (tcTables nBuf tb) → BufTy
  | .hbm, ⟨0, _⟩ => ⟨S500000, .f32⟩
  | .hbm, ⟨1, _⟩ => ⟨S500000, .f32⟩
  | .hbm, ⟨2, _⟩ => ⟨S500000, .f32⟩
  | .hbm, ⟨3, _⟩ => ⟨S500000, .f32⟩
  | .hbm, ⟨4, _⟩ => ⟨S500000, .f32⟩
  | .hbm, ⟨5, _⟩ => ⟨S16000000, .f32⟩
  | .hbm, ⟨6, _⟩ => ⟨S2x16000000, .i32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S16000000, .f32⟩
  | .hbm, ⟨20, _⟩ => ⟨S_, .i32⟩
  | .hbm, ⟨21, _⟩ => ⟨S16000000, .i32⟩
  | .hbm, ⟨22, _⟩ => ⟨S16000000, .i1⟩
  | .hbm, ⟨23, _⟩ => ⟨S_, .i32⟩
  | .hbm, ⟨24, _⟩ => ⟨S16000000, .i32⟩
  | .hbm, ⟨25, _⟩ => ⟨S16000000, .i32⟩
  | .hbm, ⟨26, _⟩ => ⟨S16000000, .i32⟩
  | .hbm, ⟨27, _⟩ => ⟨S16000000x1, .i32⟩
  | .hbm, ⟨28, _⟩ => ⟨S16000000, .f32⟩
  | .hbm, ⟨29, _⟩ => ⟨S16000000, .f32⟩
  | .hbm, ⟨30, _⟩ => ⟨S16000000, .f32⟩
  | .hbm, ⟨31, _⟩ => ⟨S16000000, .f32⟩
  | .hbm, ⟨32, _⟩ => ⟨S500000, .f32⟩
  | .hbm, ⟨33, _⟩ => ⟨S500000, .f32⟩
  | .hbm, ⟨34, _⟩ => ⟨S_, .i32⟩
  | .hbm, ⟨35, _⟩ => ⟨S16000000, .i32⟩
  | .hbm, ⟨36, _⟩ => ⟨S16000000, .i1⟩
  | .hbm, ⟨37, _⟩ => ⟨S_, .i32⟩
  | .hbm, ⟨38, _⟩ => ⟨S16000000, .i32⟩
  | .hbm, ⟨39, _⟩ => ⟨S16000000, .i32⟩
  | .hbm, ⟨40, _⟩ => ⟨S16000000, .i32⟩
  | .hbm, ⟨41, _⟩ => ⟨S16000000x1, .i32⟩
  | .hbm, ⟨42, _⟩ => ⟨S500000, .f32⟩
  | .hbm, ⟨43, _⟩ => ⟨S16000000, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S500000, .f32⟩
  | .hbm, ⟨53, _⟩ => ⟨S500000, .f32⟩
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  gather_S500000_S16000000x1_S16000000_n_0_n_n_0_1_1_wf : GatherDims.WF S500000 S16000000x1 S16000000 [] [0] [] [0] [] 1 ![1]
  scatter_S500000_S16000000x1_S16000000_n_0_0_1_wf : ScatterDims.WF S500000 S16000000x1 S16000000 [] [0] [0] 1

variable [Facts₀]

def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf

class Facts : Prop extends Facts₀ where

variable [Facts]
-- ==== Proof.EdgePhases.lean ====
/- The kernel's program before its first pallas_call: the two rows of the edge list (every edge's source node and target node), the
   phases gathered at the wrapped node indices, and the three operand arrays of the first call, each a [16000000] vector laid out as
   [125000, 128]: the source phases, the target phases, the coupling strengths. -/
import proofs.«171326_j68375879352859_1_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

open Idealize.ShloMosaic.StableHlo
variable (m : (ℓ : Loc nD τ sig) → Buf (Elt F) ℓ) (ρ : Dev nD → PrngReg)

/-! ## The pieces, as functions of arrays -/

/-- Row 0 of the edge list: every edge's source node. -/
abbrev sources (ei : IVec S2x16000000 32) : IVec S16000000 32 :=
  shapeCast S16000000 (extractStridedSlice S1x16000000 ![0, 0] ei slices_S2x16000000_S1x16000000_0_0) shapeCasts_S1x16000000_S16000000
/-- Row 1 of the edge list: every edge's target node. -/
abbrev targets (ei : IVec S2x16000000 32) : IVec S16000000 32 :=
  shapeCast S16000000 (extractStridedSlice S1x16000000 ![1, 0] ei slices_S2x16000000_S1x16000000_1_0) shapeCasts_S1x16000000_S16000000
/-- A negative node index counts from the end; the wrapped indices as the one-column array a gather or scatter reads. -/
abbrev wrapped (e : IVec S16000000 32) : IVec S16000000x1 32 :=
  broadcastInDim S16000000x1 ![0] bcast_S16000000_S16000000x1_0
    (select (cmpi .slt e (broadcastInDim S16000000 ![] bcast_S_S16000000 (constantI S_ 32 0#32)))
      (addi e (broadcastInDim S16000000 ![] bcast_S_S16000000 (constantI S_ 32 500000#32))) e)
/-- The phase of each listed node. -/
abbrev phaseOf (ph : FVec F S500000 .f32) (e : IVec S16000000 32) : FVec F S16000000 .f32 :=
  Host.gather gather_S500000_S16000000x1_S16000000_n_0_n_n_0_1_1 ph (wrapped e)

/-! ## Before the first pallas_call -/

theorem sources_at_1 (c : Dev nD) :
    W1 m ρ c (Proc.devRef .tc main_v1) = sources (m ((c : Thread nD τ).loc main_arg6)) := by
  show StableHlo.after hostOps0 (W0 m ρ c) (Proc.devRef .tc main_v1) = _
  after_results
  rfl

theorem targets_at_1 (c : Dev nD) :
    W1 m ρ c (Proc.devRef .tc main_v3) = targets (m ((c : Thread nD τ).loc main_arg6)) := by
  show StableHlo.after hostOps0 (W0 m ρ c) (Proc.devRef .tc main_v3) = _
  after_results
  rfl

set_option maxHeartbeats 2000000 in
theorem srcPhase_at_1 (c : Dev nD) :
    W1 m ρ c (Proc.devRef .tc main_v18)
      = shapeCast S125000x128 (phaseOf (m ((c : Thread nD τ).loc main_arg0)) (sources (m ((c : Thread nD τ).loc main_arg6))))
          shapeCasts_S16000000_S125000x128 := by
  show StableHlo.after hostOps0 (W0 m ρ c) (Proc.devRef .tc main_v18) = _
  after_results_simp <;> rfl

set_option maxHeartbeats 2000000 in
theorem tgtPhase_at_1 (c : Dev nD) :
    W1 m ρ c (Proc.devRef .tc main_v19)
      = shapeCast S125000x128 (phaseOf (m ((c : Thread nD τ).loc main_arg0)) (targets (m ((c : Thread nD τ).loc main_arg6))))
          shapeCasts_S16000000_S125000x128 := by
  show StableHlo.after hostOps0 (W0 m ρ c) (Proc.devRef .tc main_v19) = _
  after_results_simp <;> rfl

theorem strength_at_1 (c : Dev nD) :
    W1 m ρ c (Proc.devRef .tc main_v20)
      = shapeCast S125000x128 (m ((c : Thread nD τ).loc main_arg5)) shapeCasts_S16000000_S125000x128 := by
  show StableHlo.after hostOps0 (W0 m ρ c) (Proc.devRef .tc main_v20) = _
  after_results
  rfl

end Cert.KernelIdeal.Walk

end
-- ==== Proof.Region0Value.lean ====
/- The first pallas_call's result array. Its grid has 25 points; point t reads rows [5000 t, 5000 t + 5000) of the three operand
   arrays of shape [125000, 128] (the edges' source phases, target phases and coupling strengths, 128 edges to a row) and writes the
   same rows of the result: entry by entry the strength times the sine of (target phase − source phase). The 25 row bands tile the
   array, so after the run the whole result array is that one entrywise function of the three operand arrays as the region found them. -/
import proofs.«171326_j68375879352859_1_alg».proof.Proof.Gen.KernelIdeal.Frame
import Idealize.ShloMosaic.Lib.Pipeline.Value

set_option maxRecDepth 16384

noncomputable section

namespace Cert.KernelIdeal.Edges

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

variable (V : (c : Dev nD) → (b : Ref sig .tc) → Buf (Elt F) ((c : Thread nD τ).loc b))

theorem origin2 : (![0, 0] : Fin 2 → Nat) = fun _ => 0 := funext fun a => by fin_cases a <;> rfl

/-- The coupling term of every edge, in the [125000, 128] layout: strength · sin (target phase − source phase). -/
abbrev coupling (src tgt k : S125000x128.Idx → Elt F .f32) : S125000x128.Idx → Elt F .f32 :=
  fun i => FloatOps.mulf (k i) (FloatOps.sin (FloatOps.subf (tgt i) (src i)))

/-- The body's stored value is that function of the three blocks it loads (it loads the target block first). -/
theorem payload_eq (xt xs xk : Vec F S5000x128 .f32) : k0_pay1 xt xs xk = mulf xk (sin (subf xt xs)) := by
  unfold k0_pay1
  simp only [shapeCast_self]

/-- The four windows move together over the grid: at every point they name the same row band, one of the 25, and column band 0. -/
theorem bands_agree : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 24 ∧ win0_3.index t (1 : Fin 2) ≤ 0 :=
  (by decide +kernel : ∀ t : Fin grid0.N, _)

/-- Every one of the 25 row bands is some point's. -/
theorem band_met : ∀ q : Fin 25, ∃ t : Fin cfg0.N, win0_3.index t = ![q.val, 0] :=
  (by decide +kernel : ∀ q : Fin 25, ∃ t : Fin grid0.N, win0_3.index t = ![q.val, 0])

/-- What point t writes back is band t of the coupling function of the operand arrays. -/
theorem written_back (c : Dev nD) (t : Fin cfg0.N) :
    (dat0 V c).flushed 3 t
      = ((cfg0.win 3).blk t).view.read (Elt F) (coupling (V c main_v18) (V c main_v19) (V c main_v20)) := by
  show (cfg0.win 3).cut (grid0.coords t) ((dat0 V c).after 3 t) = _
  rw [after0_3]
  unfold out0_3
  rw [View.canon_unit_zero origin2]
  simp only [View.ld_unit_zero (S := S5000x128) origin2]
  rw [payload_eq]
  obtain ⟨e0, e1, e2, e3, e4, e5, e6, e7⟩ := bands_agree t
  funext j
  show FloatOps.mulf (V c main_v20 (((cfg0.win 2).blk t).view.emb j))
      (FloatOps.sin (FloatOps.subf (V c main_v19 (((cfg0.win 1).blk t).view.emb j)) (V c main_v18 (((cfg0.win 0).blk t).view.emb j))))
    = FloatOps.mulf (V c main_v20 (((cfg0.win 3).blk t).view.emb j))
      (FloatOps.sin (FloatOps.subf (V c main_v19 (((cfg0.win 3).blk t).view.emb j)) (V c main_v18 (((cfg0.win 3).blk t).view.emb j))))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 128 + 1 * (j 1).val = win0_3.index t (1 : Fin 2) * 128 + 1 * (j 1).val; omega
  rw [h0, h1, h2]

/-- An entry of the array lies in point t's band iff each coordinate lies in the band's range on its axis. -/
theorem mem_band (t : Fin cfg0.N) (i : S125000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Every entry of the array lies in the band of the point whose band index is its row divided by 5000. -/
theorem covered (i : S125000x128.Idx) :
    ∃ t : Fin cfg0.N, (cfg0.win 3).flush t = true ∧ i ∈ ((cfg0.win 3).blk t).view.set := by
  have hi0 : (i 0).val < 125000 := (i 0).isLt
  have hi1 : (i 1).val < 128 := (i 1).isLt
  obtain ⟨t, ht⟩ := band_met ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_band]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY of the first pallas_call after its run: the coupling function of its three operand arrays. -/
theorem result_array (c : Dev nD) :
    (dat0 V c).arrAt 3 cfg0.N = coupling (V c main_v18) (V c main_v19) (V c main_v20) :=
  (dat0 V c).arrAt_eq_of_cover 3 _ (fun t _ => written_back V c t) covered

end Cert.KernelIdeal.Edges

end
-- ==== Proof.NodeAccumulation.lean ====
/- The kernel's program from the first pallas_call's exit to the vector of node sums: the call's result, the coupling term of every
   edge, is flattened back to [16000000]; sources and targets are laid end to end, the terms and their negatives end to end, and all
   32000000 are added into a zero vector of 500000 node sums at the wrapped indices. -/
import proofs.«171326_j68375879352859_1_alg».proof.Proof.EdgePhases
import proofs.«171326_j68375879352859_1_alg».proof.Proof.Region0Value

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

open Idealize.ShloMosaic.StableHlo
variable (m : (ℓ : Loc nD τ sig) → Buf (Elt F) ℓ) (ρ : Dev nD → PrngReg)

/-- The wrapped indices of the doubled edge list, as the one-column array the scatter reads. -/
abbrev wrapped2 (e : IVec S32000000 32) : IVec S32000000x1 32 :=
  broadcastInDim S32000000x1 ![0] bcast_S32000000_S32000000x1_0
    (select (cmpi .slt e (broadcastInDim S32000000 ![] bcast_S_S32000000 (constantI S_ 32 0#32)))
      (addi e (broadcastInDim S32000000 ![] bcast_S_S32000000 (constantI S_ 32 500000#32))) e)

/-- The node sums of a term per edge: +term at the edge's source, −term at its target, from zero. -/
abbrev nodeSums (src tgt : IVec S16000000 32) (term : FVec F S16000000 .f32) : FVec F S500000 .f32 :=
  Host.scatterAdd scatter_S500000_S32000000x1_S32000000_n_0_0_1
    (broadcastInDim S500000 ![] bcast_S_S500000 (constant S_ .f32 0x00000000#32))
    (wrapped2 (concatenate S32000000 0 [⟨S16000000, src⟩, ⟨S16000000, tgt⟩] concatenates_S16000000_S16000000_S32000000_d0))
    (concatenate S32000000 0 [⟨S16000000, term⟩, ⟨S16000000, Host.negf term⟩] concatenates_S16000000_S16000000_S32000000_d0)

/-- The coupling terms as the first call leaves them, in terms of the argument arrays. -/
theorem coupling_at_2 (c : Dev nD) :
    W2 m ρ c (Proc.devRef .tc main_v21)
      = Edges.coupling
          (shapeCast S125000x128 (phaseOf (m ((c : Thread nD τ).loc main_arg0)) (sources (m ((c : Thread nD τ).loc main_arg6)))) shapeCasts_S16000000_S125000x128)
          (shapeCast S125000x128 (phaseOf (m ((c : Thread nD τ).loc main_arg0)) (targets (m ((c : Thread nD τ).loc main_arg6)))) shapeCasts_S16000000_S125000x128)
          (shapeCast S125000x128 (m ((c : Thread nD τ).loc main_arg5)) shapeCasts_S16000000_S125000x128) := by
  refine (W2_arr m ρ c 3).trans ((Edges.result_array (V1 m ρ) c).trans ?_)
  show Edges.coupling (W1 m ρ c (Proc.devRef .tc main_v18)) (W1 m ρ c (Proc.devRef .tc main_v19)) (W1 m ρ c (Proc.devRef .tc main_v20)) = _
  rw [srcPhase_at_1, tgtPhase_at_1, strength_at_1]

theorem sources_at_2 (c : Dev nD) :
    W2 m ρ c (Proc.devRef .tc main_v1) = sources (m ((c : Thread nD τ).loc main_arg6)) :=
  (W2_of_ne m ρ c main_v1 (by decide)).trans (sources_at_1 m ρ c)

theorem targets_at_2 (c : Dev nD) :
    W2 m ρ c (Proc.devRef .tc main_v3) = targets (m ((c : Thread nD τ).loc main_arg6)) :=
  (W2_of_ne m ρ c main_v3 (by decide)).trans (targets_at_1 m ρ c)

set_option maxHeartbeats 2000000 in
/-- The scatter stretch, over the contents the first call leaves. -/
theorem nodeSums_at_3_of_2 (c : Dev nD) :
    W3 m ρ c (Proc.devRef .tc main_v33)
      = nodeSums (W2 m ρ c (Proc.devRef .tc main_v1) : IVec S16000000 32) (W2 m ρ c (Proc.devRef .tc main_v3) : IVec S16000000 32)
          (shapeCast S16000000 (W2 m ρ c (Proc.devRef .tc main_v21) : FVec F S125000x128 .f32) shapeCasts_S125000x128_S16000000) := by
  show StableHlo.after hostOps1 (W2 m ρ c) (Proc.devRef .tc main_v33) = _
  after_results_simp <;> rfl

/-- The node sums, in terms of the argument arrays. -/
theorem nodeSums_at_3 (c : Dev nD) :
    W3 m ρ c (Proc.devRef .tc main_v33)
      = nodeSums (sources (m ((c : Thread nD τ).loc main_arg6))) (targets (m ((c : Thread nD τ).loc main_arg6)))
          (shapeCast S16000000 (Edges.coupling
            (shapeCast S125000x128 (phaseOf (m ((c : Thread nD τ).loc main_arg0)) (sources (m ((c : Thread nD τ).loc main_arg6)))) shapeCasts_S16000000_S125000x128)
            (shapeCast S125000x128 (phaseOf (m ((c : Thread nD τ).loc main_arg0)) (targets (m ((c : Thread nD τ).loc main_arg6)))) shapeCasts_S16000000_S125000x128)
            (shapeCast S125000x128 (m ((c : Thread nD τ).loc main_arg5)) shapeCasts_S16000000_S125000x128)) shapeCasts_S125000x128_S16000000) := by
  rw [nodeSums_at_3_of_2, sources_at_2, targets_at_2, coupling_at_2]

end Cert.KernelIdeal.Walk

end
-- ==== Proof.Region1Value.lean ====
/- The second pallas_call's result array. Its grid is one point, and every window's block is its whole [3907, 128] array: the body
   reads the padded injected power, frequency deviation, damping, inertia and accumulated coupling and writes, entry by entry,
   (power − damping · deviation + coupling) / inertia. So after the run the result array is that entrywise function of the five
   operand arrays as the region found them. -/
import proofs.«171326_j68375879352859_1_alg».proof.Proof.Gen.KernelIdeal.Frame
import Idealize.ShloMosaic.Lib.Pipeline.Value

set_option maxRecDepth 16384

noncomputable section

namespace Cert.KernelIdeal.Nodes

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

variable (V : (c : Dev nD) → (b : Ref sig .tc) → Buf (Elt F) ((c : Thread nD τ).loc b))

theorem origin2 : (![0, 0] : Fin 2 → Nat) = fun _ => 0 := funext fun a => by fin_cases a <;> rfl

/-- The swing equation's right-hand side at every node, in the padded [3907, 128] layout. -/
abbrev accel (pw dev dmp inertia cpl : S3907x128.Idx → Elt F .f32) : S3907x128.Idx → Elt F .f32 :=
  fun i => FloatOps.divf (FloatOps.addf (FloatOps.subf (pw i) (FloatOps.mulf (dmp i) (dev i))) (cpl i)) (inertia i)

/-- The body's stored value is that function of the five blocks it loads (in the order power, damping, deviation, coupling, inertia). -/
theorem payload_eq (xp xg xd xa xm : Vec F S3907x128 .f32) :
    k1_pay1 xp xg xd xa xm = divf (addf (subf xp (mulf xg xd)) xa) xm := by
  unfold k1_pay1
  simp only [shapeCast_self]

/-- At the grid's one point every window names block (0, 0). -/
theorem blocks_at_origin : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- What the one point writes back is the whole of the function of the operand arrays, read through the whole-array block. -/
theorem written_back (c : Dev nD) (t : Fin cfg1.N) :
    (dat1 V c).flushed 5 t
      = ((cfg1.win 5).blk t).view.read (Elt F)
          (accel (V c main_v35) (V c main_v37) (V c main_v39) (V c main_v41) (V c main_v43)) := by
  show (cfg1.win 5).cut (grid1.coords t) ((dat1 V c).after 5 t) = _
  rw [after1_5]
  unfold out1_5
  rw [View.canon_unit_zero origin2]
  simp only [View.ld_unit_zero (S := S3907x128) origin2]
  rw [payload_eq]
  obtain ⟨a0, a1, b0, b1, c0, c1, d0, d1, e0, e1, f0, f1⟩ := blocks_at_origin t
  funext j
  show FloatOps.divf (FloatOps.addf (FloatOps.subf (V c main_v35 (((cfg1.win 0).blk t).view.emb j))
        (FloatOps.mulf (V c main_v39 (((cfg1.win 2).blk t).view.emb j)) (V c main_v37 (((cfg1.win 1).blk t).view.emb j))))
        (V c main_v43 (((cfg1.win 4).blk t).view.emb j))) (V c main_v41 (((cfg1.win 3).blk t).view.emb j))
    = FloatOps.divf (FloatOps.addf (FloatOps.subf (V c main_v35 (((cfg1.win 5).blk t).view.emb j))
        (FloatOps.mulf (V c main_v39 (((cfg1.win 5).blk t).view.emb j)) (V c main_v37 (((cfg1.win 5).blk t).view.emb j))))
        (V c main_v43 (((cfg1.win 5).blk t).view.emb j))) (V c main_v41 (((cfg1.win 5).blk t).view.emb j))
  have h0 : ((cfg1.win 0).blk t).view.emb j = ((cfg1.win 5).blk t).view.emb j := by
    funext a; apply Fin.ext
    match a with
    | ⟨0, _⟩ => show win1_0.index t (0 : Fin 2) * 3907 + 1 * (j 0).val = win1_5.index t (0 : Fin 2) * 3907 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb j = ((cfg1.win 5).blk t).view.emb j := by
    funext a; apply Fin.ext
    match a with
    | ⟨0, _⟩ => show win1_1.index t (0 : Fin 2) * 3907 + 1 * (j 0).val = win1_5.index t (0 : Fin 2) * 3907 + 1 * (j 0).val; omega
    | ⟨1, _⟩ => show win1_1.index t (1 : Fin 2) * 128 + 1 * (j 1).val = win1_5.index t (1 : Fin 2) * 128 + 1 * (j 1).val; omega
  have h2 : ((cfg1.win 2).blk t).view.emb j = ((cfg1.win 5).blk t).view.emb j := by
    funext a; apply Fin.ext
    match a with
    | ⟨0, _⟩ => show win1_2.index t (0 : Fin 2) * 3907 + 1 * (j 0).val = win1_5.index t (0 : Fin 2) * 3907 + 1 * (j 0).val; omega
    | ⟨1, _⟩ => show win1_2.index t (1 : Fin 2) * 128 + 1 * (j 1).val = win1_5.index t (1 : Fin 2) * 128 + 1 * (j 1).val; omega
  have h3 : ((cfg1.win 3).blk t).view.emb j = ((cfg1.win 5).blk t).view.emb j := by
    funext a; apply Fin.ext
    match a with
    | ⟨0, _⟩ => show win1_3.index t (0 : Fin 2) * 3907 + 1 * (j 0).val = win1_5.index t (0 : Fin 2) * 3907 + 1 * (j 0).val; omega
    | ⟨1, _⟩ => show win1_3.index t (1 : Fin 2) * 128 + 1 * (j 1).val = win1_5.index t (1 : Fin 2) * 128 + 1 * (j 1).val; omega
  have h4 : ((cfg1.win 4).blk t).view.emb j = ((cfg1.win 5).blk t).view.emb j := by
    funext a; apply Fin.ext
    match a with
    | ⟨0, _⟩ => show win1_4.index t (0 : Fin 2) * 3907 + 1 * (j 0).val = win1_5.index t (0 : Fin 2) * 3907 + 1 * (j 0).val; omega
    | ⟨1, _⟩ => show win1_4.index t (1 : Fin 2) * 128 + 1 * (j 1).val = win1_5.index t (1 : Fin 2) * 128 + 1 * (j 1).val; omega
  rw [h0, h1, h2, h3, h4]

/-- An entry of the array lies in the point's block iff each coordinate lies in the block's range on its axis. -/
theorem mem_block (t : Fin cfg1.N) (i : S3907x128.Idx) :
    i ∈ ((cfg1.win 5).blk t).view.set ↔ ∀ a : Fin 2, win1_5.index t a * S3907x128.size a ≤ (i a).val ∧ (i a).val < win1_5.index t a * S3907x128.size a + S3907x128.size a := by
  show i ∈ ((View.whole main_v44).slice (win1_5.rect t)).set ↔ _
  rw [View.set_slice_whole, Rect.mem_set_unit]
  exact Iff.rfl

/-- The one block is the whole array. -/
theorem covered (i : S3907x128.Idx) :
    ∃ t : Fin cfg1.N, (cfg1.win 5).flush t = true ∧ i ∈ ((cfg1.win 5).blk t).view.set := by
  have hi0 : (i 0).val < 3907 := (i 0).isLt
  have hi1 : (i 1).val < 128 := (i 1).isLt
  obtain ⟨a0, a1, b0, b1, c0, c1, d0, d1, e0, e1, f0, f1⟩ := blocks_at_origin t1_0
  refine ⟨t1_0, flush1_5 t1_0, ?_⟩
  rw [mem_block]
  intro a
  match a with
  | ⟨0, _⟩ => show win1_5.index t1_0 (0 : Fin 2) * 3907 ≤ (i 0).val ∧ (i 0).val < win1_5.index t1_0 (0 : Fin 2) * 3907 + 3907; omega
  | ⟨1, _⟩ => show win1_5.index t1_0 (1 : Fin 2) * 128 ≤ (i 1).val ∧ (i 1).val < win1_5.index t1_0 (1 : Fin 2) * 128 + 128; omega

/-- THE RESULT ARRAY of the second pallas_call after its run. -/
theorem result_array (c : Dev nD) :
    (dat1 V c).arrAt 5 cfg1.N = accel (V c main_v35) (V c main_v37) (V c main_v39) (V c main_v41) (V c main_v43) :=
  (dat1 V c).arrAt_eq_of_cover 5 _ (fun t _ => written_back V c t) covered

end Cert.KernelIdeal.Nodes

end
-- ==== Proof.Combine.lean ====
/- From the node sums to the program's result. The five node vectors (injected power, frequency deviation, damping, inertia, node sums)
   are each padded from 500000 to 500096 entries — with 0, the inertia with 1 — and laid out [3907, 128]; the second pallas_call
   combines them entry by entry; its result is flattened and cut back to the first 500000 entries. Node i sits at row i / 128, lane
   i % 128 of the padded layout, and 500000 ≤ 3907 · 128, so at node i every padded vector reads its own entry i and the padding is
   never seen. -/
import proofs.«171326_j68375879352859_1_alg».proof.Proof.NodeAccumulation
import proofs.«171326_j68375879352859_1_alg».proof.Proof.Region1Value
import Idealize.ShloMosaic.Lib.KernelVsHost

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window cellOf)

variable {F : FTy → Type} [FloatOps F]

open Idealize.ShloMosaic.StableHlo Idealize.ShloMosaic.ValueIdx
variable (m : (ℓ : Loc nD τ sig) → Buf (Elt F) ℓ) (ρ : Dev nD → PrngReg)

/-- A node vector padded to 500096 entries with the value v and laid out [3907, 128]. -/
abbrev padded (x : FVec F S500000 .f32) (v : FVec F S_ .f32) : FVec F S3907x128 .f32 :=
  shapeCast S3907x128 (pad S500096 ![0] ![96] ![0] x v pads_S500000_S500096_0960 h_S_) shapeCasts_S500096_S3907x128

/-- A [3907, 128] array flattened and cut to its first 500000 entries. -/
abbrev unpadded (y : FVec F S3907x128 .f32) : FVec F S500000 .f32 :=
  extractStridedSlice S500000 ![0] (shapeCast S500096 y shapeCasts_S3907x128_S500096) slices_S500096_S500000_0

/-! ## The argument vectors reach the second call untouched -/

theorem arg1_at_2 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)

theorem arg2_at_2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)

theorem arg3_at_2 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results_simp <;> rfl)

theorem arg4_at_2 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)

/-! ## The second call's five operands -/

theorem power_at_13 (c : Dev nD) :
    W13 m ρ c (Proc.devRef .tc main_v35) = padded (m ((c : Thread nD τ).loc main_arg2)) (constant S_ .f32 0x00000000#32) := by
  have h : W13 m ρ c (Proc.devRef .tc main_v35)
      = padded (W2 m ρ c (Proc.devRef .tc main_arg2) : FVec F S500000 .f32) (constant S_ .f32 0x00000000#32) := by
    dsimp only [W13, W12, W11, W10, W9, W8, W7, W6, W5, W4, W3]
    after_results
    rfl
  rw [h, arg2_at_2]

theorem deviation_at_13 (c : Dev nD) :
    W13 m ρ c (Proc.devRef .tc main_v37) = padded (m ((c : Thread nD τ).loc main_arg1)) (constant S_ .f32 0x00000000#32) := by
  have h : W13 m ρ c (Proc.devRef .tc main_v37)
      = padded (W2 m ρ c (Proc.devRef .tc main_arg1) : FVec F S500000 .f32) (constant S_ .f32 0x00000000#32) := by
    dsimp only [W13, W12, W11, W10, W9, W8, W7, W6, W5, W4, W3]
    after_results
    rfl
  rw [h, arg1_at_2]

theorem damping_at_13 (c : Dev nD) :
    W13 m ρ c (Proc.devRef .tc main_v39) = padded (m ((c : Thread nD τ).loc main_arg4)) (constant S_ .f32 0x00000000#32) := by
  have h : W13 m ρ c (Proc.devRef .tc main_v39)
      = padded (W2 m ρ c (Proc.devRef .tc main_arg4) : FVec F S500000 .f32) (constant S_ .f32 0x00000000#32) := by
    dsimp only [W13, W12, W11, W10, W9, W8, W7, W6, W5, W4, W3]
    after_results
    rfl
  rw [h, arg4_at_2]

theorem inertia_at_13 (c : Dev nD) :
    W13 m ρ c (Proc.devRef .tc main_v41) = padded (m ((c : Thread nD τ).loc main_arg3)) (constant S_ .f32 0x3F800000#32) := by
  have h : W13 m ρ c (Proc.devRef .tc main_v41)
      = padded (W2 m ρ c (Proc.devRef .tc main_arg3) : FVec F S500000 .f32) (constant S_ .f32 0x3F800000#32) := by
    dsimp only [W13, W12, W11, W10, W9, W8, W7, W6, W5, W4, W3]
    after_results
    rfl
  rw [h, arg3_at_2]

theorem sums_at_13 (c : Dev nD) :
    W13 m ρ c (Proc.devRef .tc main_v43)
      = padded (W3 m ρ c (Proc.devRef .tc main_v33) : FVec F S500000 .f32) (constant S_ .f32 0x00000000#32) := by
  dsimp only [W13, W12, W11, W10, W9, W8, W7, W6, W5, W4]
  generalize W3 m ρ c = Wc
  after_results
  rfl

/-! ## The second call and the cut -/

theorem combined_at_14 (c : Dev nD) :
    W14 m ρ c (Proc.devRef .tc main_v44)
      = Nodes.accel (W13 m ρ c (Proc.devRef .tc main_v35)) (W13 m ρ c (Proc.devRef .tc main_v37))
          (W13 m ρ c (Proc.devRef .tc main_v39)) (W13 m ρ c (Proc.devRef .tc main_v41)) (W13 m ρ c (Proc.devRef .tc main_v43)) :=
  (W14_arr m ρ c 5).trans (Nodes.result_array (V13 m ρ) c)

theorem result_at_15 (c : Dev nD) :
    W15 m ρ c (Proc.devRef .tc main_v46) = unpadded (W14 m ρ c (Proc.devRef .tc main_v44) : FVec F S3907x128 .f32) := by
  show StableHlo.after hostOps2 (W14 m ρ c) (Proc.devRef .tc main_v46) = _
  after_results
  rfl

/-- THE PROGRAM'S RESULT as a function of the argument arrays. -/
theorem program_result (c : Dev nD) :
    W15 m ρ c (Proc.devRef .tc main_v46)
      = unpadded (Nodes.accel
          (padded (m ((c : Thread nD τ).loc main_arg2)) (constant S_ .f32 0x00000000#32))
          (padded (m ((c : Thread nD τ).loc main_arg1)) (constant S_ .f32 0x00000000#32))
          (padded (m ((c : Thread nD τ).loc main_arg4)) (constant S_ .f32 0x00000000#32))
          (padded (m ((c : Thread nD τ).loc main_arg3)) (constant S_ .f32 0x3F800000#32))
          (padded (nodeSums (sources (m ((c : Thread nD τ).loc main_arg6))) (targets (m ((c : Thread nD τ).loc main_arg6)))
            (shapeCast S16000000 (Edges.coupling
              (shapeCast S125000x128 (phaseOf (m ((c : Thread nD τ).loc main_arg0)) (sources (m ((c : Thread nD τ).loc main_arg6)))) shapeCasts_S16000000_S125000x128)
              (shapeCast S125000x128 (phaseOf (m ((c : Thread nD τ).loc main_arg0)) (targets (m ((c : Thread nD τ).loc main_arg6)))) shapeCasts_S16000000_S125000x128)
              (shapeCast S125000x128 (m ((c : Thread nD τ).loc main_arg5)) shapeCasts_S16000000_S125000x128)) shapeCasts_S125000x128_S16000000))
            (constant S_ .f32 0x00000000#32))) := by
  rw [result_at_15, combined_at_14, power_at_13, deviation_at_13, damping_at_13, inertia_at_13, sums_at_13, nodeSums_at_3]

/-! ## Reading the padded layout at a node -/

/-- Node i's cell in the [3907, 128] layout. -/
abbrev cell (i : Fin 500000) : S3907x128.Idx :=
  ix2 (⟨i.val / 128, by have := i.isLt; omega⟩ : Fin 3907) (⟨i.val % 128, Nat.mod_lt _ (by norm_num)⟩ : Fin 128)

/-- A padded vector at node i's cell is the vector's own entry i. -/
theorem padded_cell (x : FVec F S500000 .f32) (v : FVec F S_ .f32) (i : Fin 500000) :
    padded x v (cell i) = x (ix1 i) := by
  have hi := i.isLt
  refine (shapeCast_apply _ shapeCasts_S500096_S3907x128 (cell i) (ix1 (⟨i.val, by omega⟩ : Fin 500096)) ?_).trans ?_
  · rw [Shape.rowMajor_val_one, Shape.rowMajor_val_two]
    show i.val = i.val / 128 * 128 + i.val % 128
    omega
  · refine pad_apply_of_inside _ _ _ x v pads_S500000_S500096_0960 h_S_ _ (ix1 i) ?_
    intro a
    obtain rfl : a = 0 := Subsingleton.elim _ _
    show i.val = 0 + i.val * (0 + 1)
    omega

/-- The cut of a flattened [3907, 128] array at node i is the array at node i's cell. -/
theorem unpadded_apply (y : FVec F S3907x128 .f32) (i : Fin 500000) :
    unpadded y (ix1 i) = y (cell i) := by
  have hi := i.isLt
  refine (extractStridedSlice_apply _ _ slices_S500096_S500000_0 (ix1 i) (ix1 (⟨i.val, by omega⟩ : Fin 500096)) ?_).trans ?_
  · intro a
    obtain rfl : a = 0 := Subsingleton.elim _ _
    show i.val = 0 + i.val
    omega
  · refine shapeCast_apply _ shapeCasts_S3907x128_S500096 _ (cell i) ?_
    rw [Shape.rowMajor_val_one, Shape.rowMajor_val_two]
    show i.val / 128 * 128 + i.val % 128 = i.val
    omega

/-- THE PROGRAM'S RESULT AT NODE i: (power − damping · deviation + node sum) / inertia, of the entries at i. -/
theorem combined_apply (pw dev dmp inertia sums : FVec F S500000 .f32) (z o : FVec F S_ .f32) (i : Fin 500000) :
    unpadded (Nodes.accel (padded pw z) (padded dev z) (padded dmp z) (padded inertia o) (padded sums z)) (ix1 i)
      = FloatOps.divf (FloatOps.addf (FloatOps.subf (pw (ix1 i)) (FloatOps.mulf (dmp (ix1 i)) (dev (ix1 i)))) (sums (ix1 i)))
          (inertia (ix1 i)) := by
  rw [unpadded_apply]
  show FloatOps.divf (FloatOps.addf (FloatOps.subf (padded pw z (cell i)) (FloatOps.mulf (padded dmp z (cell i)) (padded dev z (cell i))))
      (padded sums z (cell i))) (padded inertia o (cell i)) = _
  rw [padded_cell, padded_cell, padded_cell, padded_cell, padded_cell]

end Cert.KernelIdeal.Walk

end
-- ==== Proof.RefValue.lean ====
/- The reference's result, in the vocabulary of the kernel's program: the base vector power − damping · deviation; the coupling term
   of every edge, strength · sin (target phase − source phase), with the phases gathered at the wrapped node indices; the terms
   added to the base at the edges' sources, their negatives added to that at the edges' targets; the whole divided by the inertia.
   The generated run states the result array as the composed term of the program's operations; this module only names its parts. -/
import proofs.«171326_j68375879352859_1_alg».proof.Defs
import proofs.«171326_j68375879352859_1_alg».proof.Proof.Gen.ReferenceIdeal.Run

set_option maxRecDepth 16384

noncomputable section

namespace Cert.ReferenceIdeal.RefValue

open Cert.ReferenceIdeal Cert.ReferenceIdeal.Gen
open Idealize.ShloMosaic Idealize.ShloMosaic.TcCoe Idealize.SL.Sem

variable {F : FTy → Type} [FloatOps F]

/-- Row 0 of the edge list: every edge's source node. -/
abbrev sources (ei : IVec S2x16000000 32) : IVec S16000000 32 :=
  shapeCast S16000000 (extractStridedSlice S1x16000000 ![0, 0] ei slices_S2x16000000_S1x16000000_0_0) shapeCasts_S1x16000000_S16000000
/-- Row 1 of the edge list: every edge's target node. -/
abbrev targets (ei : IVec S2x16000000 32) : IVec S16000000 32 :=
  shapeCast S16000000 (extractStridedSlice S1x16000000 ![1, 0] ei slices_S2x16000000_S1x16000000_1_0) shapeCasts_S1x16000000_S16000000
/-- A negative node index counts from the end; the wrapped indices as the one-column array a gather or scatter reads. -/
abbrev wrapped (e : IVec S16000000 32) : IVec S16000000x1 32 :=
  broadcastInDim S16000000x1 ![0] bcast_S16000000_S16000000x1_0
    (select (cmpi .slt e (broadcastInDim S16000000 ![] bcast_S_S16000000 (constantI S_ 32 0#32)))
      (addi e (broadcastInDim S16000000 ![] bcast_S_S16000000 (constantI S_ 32 500000#32))) e)
/-- The phase of each listed node. -/
abbrev phaseOf (ph : FVec F S500000 .f32) (e : IVec S16000000 32) : FVec F S16000000 .f32 :=
  Host.gather gather_S500000_S16000000x1_S16000000_n_0_n_n_0_1_1 ph (wrapped e)
/-- The coupling term of every edge. -/
abbrev coupling (ph : FVec F S500000 .f32) (k : FVec F S16000000 .f32) (ei : IVec S2x16000000 32) : FVec F S16000000 .f32 :=
  mulf k (Host.sin (subf (phaseOf ph (targets ei)) (phaseOf ph (sources ei))))
/-- The reference's result as a function of its seven argument arrays. -/
abbrev accel (ph dev pw inertia dmp : FVec F S500000 .f32) (k : FVec F S16000000 .f32) (ei : IVec S2x16000000 32) :
    FVec F S500000 .f32 :=
  Host.divf
    (Host.scatterAdd scatter_S500000_S16000000x1_S16000000_n_0_0_1
      (Host.scatterAdd scatter_S500000_S16000000x1_S16000000_n_0_0_1 (subf pw (mulf dmp dev)) (wrapped (sources ei)) (coupling ph k ei))
      (wrapped (targets ei)) (Host.negf (coupling ph k ei)))
    inertia

/-- The generated run's result term is that function of the argument arrays. -/
theorem result_eq (m : (ℓ : Loc nD τ sig) → Buf (Elt F) ℓ) (c : Dev nD) :
    Value.res_main_v38 m c
      = accel (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Value.res_main_v38
  rfl

end Cert.ReferenceIdeal.RefValue

end
-- ==== Proof.LibScatterAddScalars.lean ====
/- The accumulating scatter of single elements: operand [N], start indices [n, 1], updates [n]. The operand's one axis is inserted
   and is the axis the one component of the index vector names; there is no window axis. Update j lands on operand element i exactly
   when its start index, read signed, equals i; an update whose index is outside [0, N) lands nowhere. -/
import Idealize.ShloMosaic.PureOps.Ideal
import Idealize.ShloMosaic.Lib.ValueIdx

noncomputable section

open scoped BigOperators

namespace Cert.LibScatterAddScalars

open Idealize.ShloMosaic Idealize.ShloMosaic.ValueIdx

/-- The dimension numbers of a scatter of single elements into a vector. -/
abbrev scalarsDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Scalars
variable {N n w : Nat} (wf : ScatterDims.WF ⟨1, ![N]⟩ ⟨2, ![n, 1]⟩ ⟨1, ![n]⟩ [] [0] [0] 1)
  (j : Fin n) (idx : IVec ⟨2, ![n, 1]⟩ w)

/-- On the operand's one axis the window of update j starts at j's start index, read signed. -/
theorem scalars_start0 : (scalarsDims N n wf).start (ix1 j) idx 0 = (idx (ix2 j (0 : Fin 1))).toInt := by
  unfold ScatterDims.start
  rw [dif_pos (show (0 : Fin 1) ∈ (scalarsDims N n wf).scatterDimsToOperandDims from List.mem_singleton.mpr rfl)]
  have hsi : (scalarsDims N n wf).siIdx (ix1 j) ⟨List.idxOf (0 : Fin 1) (scalarsDims N n wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The inserted axis has window coordinate 0. -/
theorem scalars_window0 : (scalarsDims N n wf).window (ix1 j) 0 = 0 := by
  unfold ScatterDims.window
  rw [dif_neg]
  simp [ScatterDims.sKept, Shape.kept, List.mem_filter, List.mem_finRange]

/-- Update j lands on element i exactly when j's start index, read signed, is i. -/
theorem scalars_resultIdx?_eq_some_iff (i : Fin N) :
    (scalarsDims N n wf).resultIdx? (ix1 j) idx = some (ix1 i) ↔ (idx (ix2 j (0 : Fin 1))).toInt = (i.val : ℤ) := by
  unfold ScatterDims.resultIdx?
  have hs0 : (scalarsDims N n wf).start (ix1 j) idx 0 + ((scalarsDims N n wf).window (ix1 j) 0 : ℤ)
      = (idx (ix2 j (0 : Fin 1))).toInt := by
    rw [scalars_start0, scalars_window0]; simp
  constructor
  · intro h
    split at h
    · rename_i hall
      have e := Option.some.inj h
      have h0 := congrArg Fin.val (congrFun e 0)
      change ((scalarsDims N n wf).start (ix1 j) idx 0 + ((scalarsDims N n wf).window (ix1 j) 0 : ℤ)).toNat = i.val at h0
      have hp := (hall 0).1
      rw [hs0] at h0 hp
      omega
    · exact absurd h (by simp)
  · intro h
    have hall : ∀ a, 0 ≤ (scalarsDims N n wf).start (ix1 j) idx a + ((scalarsDims N n wf).window (ix1 j) a : ℤ) ∧
        (scalarsDims N n wf).start (ix1 j) idx a + ((scalarsDims N n wf).window (ix1 j) a : ℤ)
          < ((⟨1, ![N]⟩ : Shape).size a : ℤ) := by
      intro a
      obtain rfl : a = 0 := Subsingleton.elim _ _
      rw [hs0, h]
      have := i.isLt
      constructor
      · omega
      · change (i.val : ℤ) < (N : ℤ); omega
    rw [dif_pos hall]
    congr 1
    funext a
    refine Fin.ext ?_
    obtain rfl : a = 0 := Subsingleton.elim _ _
    change ((scalarsDims N n wf).start (ix1 j) idx 0 + ((scalarsDims N n wf).window (ix1 j) 0 : ℤ)).toNat = i.val
    rw [hs0, h]; simp

end Scalars

/-- THE ELEMENT SCATTER-ADD READ AT i: the operand there plus the sum of the updates whose start index is i. -/
theorem scatterAdd_scalars_apply {N n w : Nat} {φ : FTy} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1)
    (x : FVec Ideal ⟨1, ![N]⟩ φ) (idx : IVec ⟨2, ![n, 1]⟩ w) (upd : FVec Ideal ⟨1, ![n]⟩ φ) (i : Fin N) :
    Host.scatterAdd d x idx upd (ix1 i)
      = x (ix1 i) + ∑ j ∈ Finset.univ.filter (fun j : Fin n => (idx (ix2 j (0 : Fin 1))).toInt = (i.val : ℤ)), upd (ix1 j) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix1 j) ?_ ?_ ?_ ?_
  · intro j hj
    simp only [Finset.mem_filter, Finset.mem_univ, true_and] at hj ⊢
    exact (scalars_resultIdx?_eq_some_iff wf j idx i).2 hj
  · intro j _ j' _ hjj
    exact congrFun hjj 0
  · intro p hp
    simp only [Finset.mem_filter, Finset.mem_univ, true_and] at hp
    rw [eq_ix1 p] at hp ⊢
    exact ⟨p 0, Finset.mem_filter.2 ⟨Finset.mem_univ _, (scalars_resultIdx?_eq_some_iff wf (p 0) idx i).1 hp⟩, rfl⟩
  · intro j _
    rfl

end Cert.LibScatterAddScalars

end
-- ==== Proof.LibConcatVectors.lean ====
/- Two vectors laid end to end: [m] and [n] concatenated to [L], L = m + n. Read at a position below m the result is the first vector
   there; at position m + j it is the second vector at j. A sum over the positions of [L] that satisfy a condition on one concatenation,
   of the entries of another concatenation of the same extents, is the sum over the first pieces plus the sum over the second pieces. -/
import Idealize.ShloMosaic.Lib.Pipeline.Value
import Idealize.ShloMosaic.Lib.ValueIdx

noncomputable section

open scoped BigOperators

namespace Cert.LibConcatVectors

open Idealize.ShloMosaic Idealize.ShloMosaic.ValueIdx

section Read
variable {α : Type} {m n L : Nat}

/-- A position of the first piece, as a position of the whole. -/
abbrev inl (hL : m + n = L) (j : Fin m) : Fin L := ⟨j.val, by have := j.isLt; omega⟩
/-- A position of the second piece, as a position of the whole. -/
abbrev inr (hL : m + n = L) (j : Fin n) : Fin L := ⟨m + j.val, by have := j.isLt; omega⟩

/-- The concatenation read in its first piece. -/
theorem concat_inl (hL : m + n = L) (x₁ : (⟨1, ![m]⟩ : Shape).Idx → α) (x₂ : (⟨1, ![n]⟩ : Shape).Idx → α)
    (h : Shape.Concatenates [(⟨1, ![m]⟩ : Shape), ⟨1, ![n]⟩] ⟨1, ![L]⟩ 0) (j : Fin m) :
    concatenate (⟨1, ![L]⟩ : Shape) 0 [⟨⟨1, ![m]⟩, x₁⟩, ⟨⟨1, ![n]⟩, x₂⟩] h (ix1 (inl hL j)) = x₁ (ix1 j) :=
  concatenate_pair_apply_left (0 : Fin 1) x₁ x₂ h (ix1 (inl hL j)) rfl (ix1 j) (by
    intro b
    obtain rfl : b = 0 := Subsingleton.elim _ _
    rfl)

/-- The concatenation read in its second piece. -/
theorem concat_inr (hL : m + n = L) (x₁ : (⟨1, ![m]⟩ : Shape).Idx → α) (x₂ : (⟨1, ![n]⟩ : Shape).Idx → α)
    (h : Shape.Concatenates [(⟨1, ![m]⟩ : Shape), ⟨1, ![n]⟩] ⟨1, ![L]⟩ 0) (j : Fin n) :
    concatenate (⟨1, ![L]⟩ : Shape) 0 [⟨⟨1, ![m]⟩, x₁⟩, ⟨⟨1, ![n]⟩, x₂⟩] h (ix1 (inr hL j)) = x₂ (ix1 j) :=
  concatenate_pair_apply_right (0 : Fin 1) x₁ x₂ h (ix1 (inr hL j)) rfl rfl (ix1 j) (by
    intro b hb
    obtain rfl : b = 0 := Subsingleton.elim _ _
    exact absurd rfl hb) (by
    show j.val + m = m + j.val
    omega)

end Read

section Sum
variable {M : Type} [AddCommMonoid M] {m n L : Nat}

/-- A sum over the positions of [L] that satisfy p splits at m. -/
theorem sum_filter_split (hL : m + n = L) (p : Fin L → Prop) [DecidablePred p] (f : Fin L → M) :
    ∑ j ∈ Finset.univ.filter p, f j
      = ∑ j ∈ Finset.univ.filter (fun j : Fin m => p (inl hL j)), f (inl hL j)
        + ∑ j ∈ Finset.univ.filter (fun j : Fin n => p (inr hL j)), f (inr hL j) := by
  subst hL
  rw [Finset.sum_filter, Fin.sum_univ_add, Finset.sum_filter, Finset.sum_filter]
  rfl

end Sum

section Both
variable {α M : Type} [AddCommMonoid M] {m n L : Nat}

/-- The filtered sum over a concatenation: the condition reads a concatenation of keys, the summand a concatenation of values. -/
theorem sum_filter_concat (hL : m + n = L)
    (k₁ : (⟨1, ![m]⟩ : Shape).Idx → α) (k₂ : (⟨1, ![n]⟩ : Shape).Idx → α)
    (v₁ : (⟨1, ![m]⟩ : Shape).Idx → M) (v₂ : (⟨1, ![n]⟩ : Shape).Idx → M)
    (h : Shape.Concatenates [(⟨1, ![m]⟩ : Shape), ⟨1, ![n]⟩] ⟨1, ![L]⟩ 0)
    (P : α → Prop) [DecidablePred P] :
    ∑ j ∈ Finset.univ.filter (fun j : Fin L =>
        P (concatenate (⟨1, ![L]⟩ : Shape) 0 [⟨⟨1, ![m]⟩, k₁⟩, ⟨⟨1, ![n]⟩, k₂⟩] h (ix1 j))),
        concatenate (⟨1, ![L]⟩ : Shape) 0 [⟨⟨1, ![m]⟩, v₁⟩, ⟨⟨1, ![n]⟩, v₂⟩] h (ix1 j)
      = ∑ j ∈ Finset.univ.filter (fun j : Fin m => P (k₁ (ix1 j))), v₁ (ix1 j)
        + ∑ j ∈ Finset.univ.filter (fun j : Fin n => P (k₂ (ix1 j))), v₂ (ix1 j) := by
  rw [sum_filter_split hL]
  simp only [concat_inl hL, concat_inr hL]

end Both

end Cert.LibConcatVectors

end
-- ==== Proof.NodeSums.lean ====
/- The node sums. Every edge e carries a term I e. Node i collects +I e from the edges whose source is i and −I e from the edges whose
   target is i (an edge whose wrapped index is outside the nodes contributes nothing). One program adds the two families to a base
   vector one after the other. The other lays the sources and the targets end to end, the terms and their negatives end to end, adds
   them all into a zero vector at once and then adds that vector to the base. On the extended reals addition is commutative and
   associative and zero is neutral, so the two results are equal at every node, whatever the values. -/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«171326_j68375879352859_1_alg».proof.Proof.LibScatterAddScalars
import proofs.«171326_j68375879352859_1_alg».proof.Proof.LibConcatVectors

noncomputable section

open scoped BigOperators

namespace Cert.NodeSums

open Idealize.ShloMosaic Idealize.ShloMosaic.ValueIdx Cert.LibScatterAddScalars Cert.LibConcatVectors

/-- A node index below z (signed) counts from the end: it is moved up by b; any other is kept. -/
abbrev wrapWord (z b w : BitVec 32) : BitVec 32 := Scalar.select (IntOp.cmpi .slt w z) (IntOp.addi w b) w

section Column
variable {n : Nat} (hb : (⟨1, ![n]⟩ : Shape).BroadcastsInDim ⟨2, ![n, 1]⟩ ![0])
  (h0 : (⟨0, ![]⟩ : Shape).BroadcastsInDim ⟨1, ![n]⟩ ![]) (z b : BitVec 32)

/-- The wrapped indices as the one-column array a scatter reads. -/
abbrev wrapCol (e : IVec ⟨1, ![n]⟩ 32) : IVec ⟨2, ![n, 1]⟩ 32 :=
  broadcastInDim ⟨2, ![n, 1]⟩ ![0] hb
    (select (cmpi .slt e (broadcastInDim ⟨1, ![n]⟩ ![] h0 (constantI ⟨0, ![]⟩ 32 z)))
      (addi e (broadcastInDim ⟨1, ![n]⟩ ![] h0 (constantI ⟨0, ![]⟩ 32 b))) e)

/-- Entry (j, 0) of the column is the wrapped j-th index. -/
theorem wrapCol_apply (e : IVec ⟨1, ![n]⟩ 32) (j : Fin n) :
    wrapCol hb h0 z b e (ix2 j (0 : Fin 1)) = wrapWord z b (e (ix1 j)) := by
  refine (broadcastInDim_apply _ hb _ (ix2 j (0 : Fin 1)) (ix1 j) ?_).trans rfl
  intro a
  obtain rfl : a = 0 := Subsingleton.elim _ _
  show j.val = if n = 1 then 0 else j.val
  split
  · have := j.isLt; omega
  · rfl

end Column

/-- THE TWO ACCUMULATIONS AGREE at every node. -/
theorem node_sums {N E L : Nat} (hL : E + E = L)
    (dE : ScatterDims ⟨1, ![N]⟩ ⟨2, ![E, 1]⟩ ⟨1, ![E]⟩)
    (dEu : dE.updateWindowDims = []) (dEi : dE.insertedWindowDims = [0]) (dEs : dE.scatterDimsToOperandDims = [0])
    (dEv : dE.indexVectorDim = 1)
    (dL : ScatterDims ⟨1, ![N]⟩ ⟨2, ![L, 1]⟩ ⟨1, ![L]⟩)
    (dLu : dL.updateWindowDims = []) (dLi : dL.insertedWindowDims = [0]) (dLs : dL.scatterDimsToOperandDims = [0])
    (dLv : dL.indexVectorDim = 1)
    (hcat : Shape.Concatenates [(⟨1, ![E]⟩ : Shape), ⟨1, ![E]⟩] ⟨1, ![L]⟩ 0)
    (hbE : (⟨1, ![E]⟩ : Shape).BroadcastsInDim ⟨2, ![E, 1]⟩ ![0]) (h0E : (⟨0, ![]⟩ : Shape).BroadcastsInDim ⟨1, ![E]⟩ ![])
    (hbL : (⟨1, ![L]⟩ : Shape).BroadcastsInDim ⟨2, ![L, 1]⟩ ![0]) (h0L : (⟨0, ![]⟩ : Shape).BroadcastsInDim ⟨1, ![L]⟩ ![])
    (h0N : (⟨0, ![]⟩ : Shape).BroadcastsInDim ⟨1, ![N]⟩ ![]) (z b : BitVec 32)
    (src tgt : IVec ⟨1, ![E]⟩ 32) (I : FVec Ideal ⟨1, ![E]⟩ .f32) (base : FVec Ideal ⟨1, ![N]⟩ .f32) (i : Fin N) :
    FloatOps.addf (base (ix1 i))
        (Host.scatterAdd dL (broadcastInDim ⟨1, ![N]⟩ ![] h0N (constant (F := Ideal) ⟨0, ![]⟩ .f32 0x00000000#32))
          (wrapCol hbL h0L z b (concatenate ⟨1, ![L]⟩ 0 [⟨⟨1, ![E]⟩, src⟩, ⟨⟨1, ![E]⟩, tgt⟩] hcat))
          (concatenate ⟨1, ![L]⟩ 0 [⟨⟨1, ![E]⟩, I⟩, ⟨⟨1, ![E]⟩, Host.negf I⟩] hcat) (ix1 i))
      = Host.scatterAdd dE (Host.scatterAdd dE base (wrapCol hbE h0E z b src) I) (wrapCol hbE h0E z b tgt) (Host.negf I) (ix1 i) := by
  rw [scatterAdd_scalars_apply dL dLu dLi dLs dLv, scatterAdd_scalars_apply dE dEu dEi dEs dEv,
    scatterAdd_scalars_apply dE dEu dEi dEs dEv]
  simp only [wrapCol_apply]
  rw [sum_filter_concat hL src tgt I (Host.negf I) hcat (fun w => (wrapWord z b w).toInt = (i.val : ℤ))]
  have hz : (broadcastInDim ⟨1, ![N]⟩ ![] h0N (constant (F := Ideal) ⟨0, ![]⟩ .f32 0x00000000#32)) (ix1 i) = (0 : EReal) := by
    rw [broadcastInDim_scalar_apply]
    exact Ideal.ofBits_zero_f32
  rw [hz, Ideal.addf_def, zero_add, add_assoc]

end Cert.NodeSums

end
-- ==== Proof.Bridge.lean ====
/- The two programs compute one function of the seven argument arrays. At node i both results are a quotient by the inertia at i. The
   kernel's numerator is (power − damping · deviation) + s, where s is what the doubled scatter leaves at i from zero; the reference's
   is the base power − damping · deviation with the coupling terms added at the sources and their negatives at the targets. The
   first pallas_call's result, flattened, is the reference's coupling term edge by edge (the [125000, 128] layout is undone by the
   flattening; the device sine and the host sine are one function on the extended reals), the second pallas_call reads each padded
   vector at its own entry i, and the two accumulations agree because addition of extended reals is commutative and associative. -/
import proofs.«171326_j68375879352859_1_alg».proof.Proof.Combine
import proofs.«171326_j68375879352859_1_alg».proof.Proof.RefValue
import proofs.«171326_j68375879352859_1_alg».proof.Proof.NodeSums

set_option maxRecDepth 16384

noncomputable section

namespace Cert.Proof.Swing

open Idealize.ShloMosaic Idealize.ShloMosaic.TcCoe Idealize.ShloMosaic.ValueIdx Idealize.SL.Sem

section Kernel
open Cert.KernelIdeal Cert.KernelIdeal.Gen Cert.KernelIdeal.Walk

/-- The kernel program's result as a function of its seven argument arrays. -/
abbrev kernelAccel (ph dev pw inertia dmp : FVec Ideal S500000 .f32) (k : FVec Ideal S16000000 .f32) (ei : IVec S2x16000000 32) :
    FVec Ideal S500000 .f32 :=
  unpadded (Cert.KernelIdeal.Nodes.accel
    (padded pw (constant S_ .f32 0x00000000#32))
    (padded dev (constant S_ .f32 0x00000000#32))
    (padded dmp (constant S_ .f32 0x00000000#32))
    (padded inertia (constant S_ .f32 0x3F800000#32))
    (padded (nodeSums (sources ei) (targets ei)
      (shapeCast S16000000 (Cert.KernelIdeal.Edges.coupling
        (shapeCast S125000x128 (phaseOf ph (sources ei)) shapeCasts_S16000000_S125000x128)
        (shapeCast S125000x128 (phaseOf ph (targets ei)) shapeCasts_S16000000_S125000x128)
        (shapeCast S125000x128 k shapeCasts_S16000000_S125000x128)) shapeCasts_S125000x128_S16000000))
      (constant S_ .f32 0x00000000#32)))

/-- The first pallas_call's result, flattened, is the reference's coupling term of every edge. -/
theorem kernel_terms (ph : FVec Ideal S500000 .f32) (k : FVec Ideal S16000000 .f32) (ei : IVec S2x16000000 32) :
    shapeCast S16000000 (Cert.KernelIdeal.Edges.coupling
        (shapeCast S125000x128 (phaseOf ph (sources ei)) shapeCasts_S16000000_S125000x128)
        (shapeCast S125000x128 (phaseOf ph (targets ei)) shapeCasts_S16000000_S125000x128)
        (shapeCast S125000x128 k shapeCasts_S16000000_S125000x128)) shapeCasts_S125000x128_S16000000
      = Cert.ReferenceIdeal.RefValue.coupling (F := Ideal) ph k ei := by
  have h1 : Cert.KernelIdeal.Edges.coupling
        (shapeCast S125000x128 (phaseOf ph (sources ei)) shapeCasts_S16000000_S125000x128)
        (shapeCast S125000x128 (phaseOf ph (targets ei)) shapeCasts_S16000000_S125000x128)
        (shapeCast S125000x128 k shapeCasts_S16000000_S125000x128)
      = shapeCast S125000x128 (mulf k (sin (subf (phaseOf ph (targets ei)) (phaseOf ph (sources ei))))) shapeCasts_S16000000_S125000x128 := rfl
  rw [h1, shapeCast_shapeCast]
  rfl

end Kernel

/-- THE TWO RESULTS ARE ONE FUNCTION of the argument arrays, whatever their values. -/
theorem values_agree (ph dev pw inertia dmp : FVec Ideal Cert.KernelIdeal.S500000 .f32) (k : FVec Ideal Cert.KernelIdeal.S16000000 .f32)
    (ei : IVec Cert.KernelIdeal.S2x16000000 32) :
    kernelAccel ph dev pw inertia dmp k ei = Cert.ReferenceIdeal.RefValue.accel (F := Ideal) ph dev pw inertia dmp k ei := by
  funext idx
  obtain ⟨i, rfl⟩ : ∃ i : Fin 500000, idx = ix1 i := ⟨idx 0, eq_ix1 idx⟩
  refine (Cert.KernelIdeal.Walk.combined_apply pw dev dmp inertia _ _ _ i).trans ?_
  rw [kernel_terms]
  show Ideal.div _ _ = Ideal.div _ _
  congr 1
  exact Cert.NodeSums.node_sums (N := 500000) (E := 16000000) (L := 32000000) rfl
    Cert.ReferenceIdeal.scatter_S500000_S16000000x1_S16000000_n_0_0_1 rfl rfl rfl rfl
    Cert.KernelIdeal.scatter_S500000_S32000000x1_S32000000_n_0_0_1 rfl rfl rfl rfl
    Cert.KernelIdeal.Facts₀.concatenates_S16000000_S16000000_S32000000_d0
    Cert.ReferenceIdeal.Facts₀.bcast_S16000000_S16000000x1_0 Cert.ReferenceIdeal.Facts₀.bcast_S_S16000000
    Cert.KernelIdeal.Facts₀.bcast_S32000000_S32000000x1_0 Cert.KernelIdeal.Facts₀.bcast_S_S32000000
    Cert.KernelIdeal.Facts₀.bcast_S_S500000 0#32 500000#32
    (Cert.ReferenceIdeal.RefValue.sources ei) (Cert.ReferenceIdeal.RefValue.targets ei)
    (Cert.ReferenceIdeal.RefValue.coupling (F := Ideal) ph k ei) (subf pw (mulf dmp dev)) i

end Cert.Proof.Swing

end
-- ==== Proof.lean ====
/- A network of 500000 oscillators on 16000000 edges (the swing equation): the acceleration of node i is
     (power i − damping i · deviation i + Σ over edges with source i of K e · sin (phase (target e) − phase (source e))
                                        − Σ over edges with target i of K e · sin (phase (target e) − phase (source e))) / inertia i.
   The kernel's program gathers the phases on the host, computes the coupling term of every edge in a first pallas_call over a
   [125000, 128] layout in 25 row bands, scatters the terms and their negatives together into a zero vector of node sums, pads the five
   node vectors to a [3907, 128] layout and combines them in a second, one-block pallas_call, and cuts the padding off. The reference
   adds the terms to the base power − damping · deviation at the sources, then the negatives at the targets, and divides.
   The three frames: the kernel's two programs by the generated frame of their two regions among the host stretches, the reference's
   by its generated run. The idealization rewrote nothing. The value claim: the kernel's result array is read off the same launch with
   the result buffer named (KernelRun), walked back through the host stretches and the two pallas_calls to the argument arrays
   (EdgePhases, Region0Value, NodeAccumulation, Region1Value, Combine); the reference's from its generated run (RefValue); the two
   are one function because sums of extended reals may be regrouped and reordered and zero is neutral (NodeSums, Bridge). No
   finiteness of the inputs is used. -/
import proofs.«171326_j68375879352859_1_alg».proof.Defs
import proofs.«171326_j68375879352859_1_alg».proof.Proof.Gen.Kernel
import proofs.«171326_j68375879352859_1_alg».proof.Proof.Gen.Kernel.Frame
import proofs.«171326_j68375879352859_1_alg».proof.Proof.Gen.KernelIdeal
import proofs.«171326_j68375879352859_1_alg».proof.Proof.Gen.KernelIdeal.Frame
import proofs.«171326_j68375879352859_1_alg».proof.Proof.Gen.ReferenceIdeal
import proofs.«171326_j68375879352859_1_alg».proof.Proof.Gen.ReferenceIdeal.Run
import proofs.«171326_j68375879352859_1_alg».proof.Proof.Gen.Pre_finite_inputs
import proofs.«171326_j68375879352859_1_alg».proof.Proof.KernelRun
import proofs.«171326_j68375879352859_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

namespace SwingClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- The kernel's run with its result array as the kernel's function of the argument arrays. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v46)
          = Swing.kernelAccel (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun r h c => ⟨(h c).1.trans (Cert.KernelIdeal.Walk.program_result m ρ c), (h c).2⟩)
    (Cert.KernelIdeal.Named.run_named (F := Ideal) m ρ)

/-- At Ideal both programs, run from memories that agree on the arguments, end with the same result array. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  obtain ⟨h0, h1, h2, h3, h4, h5, h6⟩ := hagree c
  rw [h0, h1, h2, h3, h4, h5, h6]
  exact (Swing.values_agree _ _ _ _ _ _ _).symm

end SwingClaims

theorem claim : Cert.Claim :=
  ⟨Cert.Kernel.Gen.facts, Cert.KernelIdeal.Gen.facts, Cert.ReferenceIdeal.Gen.facts, Cert.Pre_finite_inputs.Gen.facts,
    SwingClaims.frame_k, SwingClaims.frame_ki, SwingClaims.frame_ri, SwingClaims.preserves, SwingClaims.algebraic⟩

end Cert.Proof

end
